-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x256 .f32) (main_arg1 : FVec F S3200000x1 .f32) (main_arg2 : IVec S3200000 32) (main_arg3 : FVec F S257x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S257x256 .f32 := Host.absf main_arg3
  let main_cst_2 : FVec F S_ .f32 := constant S_ .f32 0x7F800000#32
  let main_v10 : FVec F S257x256 .f32 := broadcastInDim S257x256 ![] bcast_S_S257x256 main_cst_2
  let main_v11 : IVec S257x256 1 := cmpf .olt main_v9 main_v10
  let main_c_3 : IVec S_ 1 := constantI S_ 1 1#1
  let main_v12 : IVec S_ 1 := (fun x v => Host.reduce IntOp.andi x v reducesTo_S257x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩
abbrev S100000x1 : Shape := ⟨2, ![100000, 1]⟩
abbrev S100000x257 : Shape := ⟨2, ![100000, 257]⟩
abbrev S1x256 : Shape := ⟨2, ![1, 256]⟩
abbrev S4000x257 : Shape := ⟨2, ![4000, 257]⟩
abbrev S4000x256 : Shape := ⟨2, ![4000, 256]⟩

abbrev nBuf : Space → Nat
  | .hbm => 12
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S3200000x1, .f32⟩
  | .hbm, ⟨2, _⟩ => ⟨S3200000, .i32⟩
  | .hbm, ⟨3, _⟩ => ⟨S257x256, .f32⟩
  | .hbm, ⟨4, _⟩ => ⟨S256, .f32⟩
  | .hbm, ⟨5, _⟩ => ⟨S_, .f32⟩
  | .hbm, ⟨6, _⟩ => ⟨S100000x1, .f32⟩
  | .hbm, ⟨7, _⟩ => ⟨S3200000x1, .i32⟩
  | .hbm, ⟨8, _⟩ => ⟨S100000x1, .f32⟩
  | .hbm, ⟨9, _⟩ => ⟨S100000x257, .f32⟩
  | .hbm, ⟨10, _⟩ => ⟨S1x256, .f32⟩
  | .hbm, ⟨11, _⟩ => ⟨S100000x256, .f32⟩
  | .local _ .vmem, ⟨0, _⟩ => ⟨S4000x257, .f32⟩
  | .local _ .vmem, ⟨1, _⟩ => ⟨S4000x257, .f32⟩
  | .local _ .vmem, ⟨2, _⟩ => ⟨S257x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  concatenates_S100000x256_S100000x1_S100000x257_d1 : Shape.Concatenates [S100000x256, S100000x1] S100000x257 1
  shapeCasts_S256_S1x256 : S256.ShapeCasts S1x256
  inb_S4000x257_S4000x257_0_0 : ∀ a, (![0, 0] : Fin 2 → Nat) a + S4000x257.size a ≤ S4000x257.size a
  h_S4000x257 : 0 < S4000x257.numel
  shapeCasts_S4000x257_S4000x257 : S4000x257.ShapeCasts S4000x257
  bitsLt_bf16_f32 : FTy.bits .bf16 < FTy.bits .f32
  inb_S257x256_S257x256_0_0 : ∀ a, (![0, 0] : Fin 2 → Nat) a + S257x256.size a ≤ S257x256.size a
  h_S257x256 : 0 < S257x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  scatter_S100000x1_S3200000x1_S3200000x1_1_0_0_1_wf : ScatterDims.WF S100000x1 S3200000x1 S3200000x1 [1] [0] [0] 1
  dot_S4000x257_S257x256_S4000x256_1_0_0_1_n_n_wf : DotDims.WF S4000x257 S257x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x257.size a ≤ S100000x257.size a
  hwx0_0 : ∀ i : grid0.Coords, EltTy.bits .f32 = 32 ∨ (Rect.block (s := S100000x257) S4000x257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x256.size a ≤ S257x256.size a
  hwx0_1 : ∀ i : grid0.Coords, EltTy.bits .f32 = 32 ∨ (Rect.block (s := S257x256) S257x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S4000x257_S257x256_S4000x256_1_0_0_1_n_n : DotDims S4000x257 S257x256 S4000x256 where
  lhsContracting := [1]
  rhsContracting := [0]
  lhsNonContracting := [0]
  rhsNonContracting := [1]
  lhsBatch := []
  rhsBatch := []
  wf := dot_S4000x257_S257x256_S4000x256_1_0_0_1_n_n_wf

abbrev win0_0 : Pipeline.Window sig grid0 :=
  Pipeline.Window.ofSpec (Memref.whole main_v3) S4000x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S257x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S3200000x1 : Shape := ⟨2, ![3200000, 1]⟩
abbrev S3200000 : Shape := ⟨1, ![3200000]⟩
abbrev S257x256 : Shape := ⟨2, ![257, 256]⟩
abbrev S256 : Shape := ⟨1, ![256]⟩
abbrev S_ : Shape := ⟨0, ![]⟩
abbrev S100000x1 : Shape := ⟨2, ![100000, 1]⟩
abbrev S100000x257 : Shape := ⟨2, ![100000, 257]⟩
abbrev S1x256 : Shape := ⟨2, ![1, 256]⟩

abbrev nBuf : Space → Nat
  | .hbm => 14
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000x1, .f32⟩
  | .hbm, ⟨2, _⟩ => ⟨S3200000, .i32⟩
  | .hbm, ⟨3, _⟩ => ⟨S257x256, .f32⟩
  | .hbm, ⟨4, _⟩ => ⟨S256, .f32⟩
  | .hbm, ⟨5, _⟩ => ⟨S_, .f32⟩
  | .hbm, ⟨6, _⟩ => ⟨S100000x1, .f32⟩
  | .hbm, ⟨7, _⟩ => ⟨S3200000x1, .i32⟩
  | .hbm, ⟨8, _⟩ => ⟨S100000x1, .f32⟩
  | .hbm, ⟨9, _⟩ => ⟨S100000x257, .f32⟩
  | .hbm, ⟨10, _⟩ => ⟨S100000x256, .f32⟩
  | .hbm, ⟨11, _⟩ => ⟨S1x256, .f32⟩
  | .hbm, ⟨12, _⟩ => ⟨S100000x256, .f32⟩
  | .hbm, ⟨13, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  concatenates_S100000x256_S100000x1_S100000x257_d1 : Shape.Concatenates [S100000x256, S100000x1] S100000x257 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000x1_S3200000x1_S3200000x1_1_0_0_1_wf : ScatterDims.WF S100000x1 S3200000x1 S3200000x1 [1] [0] [0] 1
  dot_S100000x257_S257x256_S100000x256_1_0_0_1_n_n_wf : DotDims.WF S100000x257 S257x256 S100000x256 [1] [0] [0] [1] [] []

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x257_S257x256_S100000x256_1_0_0_1_n_n : DotDims S100000x257 S257x256 S100000x256 where
  lhsContracting := [1]
  rhsContracting := [0]
  lhsNonContracting := [0]
  rhsNonContracting := [1]
  lhsBatch := []
  rhsBatch := []
  wf := dot_S100000x257_S257x256_S100000x256_1_0_0_1_n_n_wf

class Facts : Prop extends Facts₀ where

variable [Facts]
-- ==== Proof.Affine.lean ====
/-
  The function both programs compute, over literal shapes: an affine map applied to every row.

  For a table `h` of 100000 rows and 257 columns, a weight matrix `w` with 257 rows and 256 columns and a bias `b` of
  256 entries, the entry in row `r` and column `c` of the result is
      (∑ k < 257, h[r, k] · w[k, c]) + b[c]
  on the extended reals. Nothing here depends on a program: this is the specification the kernel's
  blocks and the reference's host operations are each shown to compute.
-/
import Idealize.ShloMosaic.PureOps.Ideal
import Idealize.ShloMosaic.Lib.ValueIdx

noncomputable section

open scoped BigOperators

namespace Cert.Affine

open Idealize.ShloMosaic Idealize.ShloMosaic.ValueIdx

/-- Row `r` of `h` against column `c` of `w`: the sum over the 257 shared coordinates of the products. -/
def rowDot (h : FVec Ideal ⟨2, ![100000, 257]⟩ .f32) (w : FVec Ideal ⟨2, ![257, 256]⟩ .f32) (r : Fin 100000) (c : Fin 256) : EReal :=
  ∑ k : Fin 257, h (ix2 r k) * w (ix2 k c)

/-- The affine map at row `r`, column `c`: the row-by-column sum plus the bias entry of that column. -/
def entry (h : FVec Ideal ⟨2, ![100000, 257]⟩ .f32) (w : FVec Ideal ⟨2, ![257, 256]⟩ .f32) (b : FVec Ideal ⟨1, ![256]⟩ .f32)
    (r : Fin 100000) (c : Fin 256) : EReal :=
  rowDot h w r c + b (ix1 c)

/-- The whole result array: `entry` at each index's two coordinates. -/
def affine (h : FVec Ideal ⟨2, ![100000, 257]⟩ .f32) (w : FVec Ideal ⟨2, ![257, 256]⟩ .f32) (b : FVec Ideal ⟨1, ![256]⟩ .f32) :
    FVec Ideal ⟨2, ![100000, 256]⟩ .f32 :=
  fun i => entry h w b ⟨(i 0).val, (i 0).isLt⟩ ⟨(i 1).val, (i 1).isLt⟩

/-- The result read at explicit coordinates. -/
theorem affine_ix2 (h : FVec Ideal ⟨2, ![100000, 257]⟩ .f32) (w : FVec Ideal ⟨2, ![257, 256]⟩ .f32) (b : FVec Ideal ⟨1, ![256]⟩ .f32)
    (r : Fin 100000) (c : Fin 256) : affine h w b (ix2 r c) = entry h w b r c := rfl

end Cert.Affine

end
-- ==== Proof.Payload.lean ====
/-
  One block of the kernel body, read at an index.

  At a grid point the body loads a block `x` of 4000 rows of the table (all 257 columns), the whole weight matrix `w`
  and the bias as a single row `v`, and stores, at row `p` and column `q` of the output block,
      (∑ k < 257, x[p, k] · w[k, q]) + v[0, q].
  The two narrowing format changes in front of the matrix product are the identity on extended reals, the product
  accumulates into zeros and so is the plain sum over the one contracted axis, and the bias row is repeated down the
  4000 rows.
-/
import proofs.«172133_j76192719831671_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The product's operand indices, axis by axis -/

/-- The left operand's row is the output's row. -/
theorem lhs_axis0 (i : S4000x256.Idx) (s : dot_S4000x257_S257x256_S4000x256_1_0_0_1_n_n.contr.Idx) :
    (dot_S4000x257_S257x256_S4000x256_1_0_0_1_n_n.lhsIdx i s 0).val = (i 0).val := by
  unfold DotDims.lhsIdx
  rw [dif_neg (show ¬(0 : Fin S4000x257.rank) ∈ dot_S4000x257_S257x256_S4000x256_1_0_0_1_n_n.lhsBatch by decide), dif_pos (show (0 : Fin S4000x257.rank) ∈ dot_S4000x257_S257x256_S4000x256_1_0_0_1_n_n.lhsNonContracting by decide)]
  rfl
/-- The left operand's column is the contracted coordinate. -/
theorem lhs_axis1 (i : S4000x256.Idx) (s : dot_S4000x257_S257x256_S4000x256_1_0_0_1_n_n.contr.Idx) :
    (dot_S4000x257_S257x256_S4000x256_1_0_0_1_n_n.lhsIdx i s 1).val = (s ⟨0, by decide⟩).val :=
  dot_S4000x257_S257x256_S4000x256_1_0_0_1_n_n.lhsIdx_val_of_single rfl i s
/-- The right operand's row is the contracted coordinate. -/
theorem rhs_axis0 (i : S4000x256.Idx) (s : dot_S4000x257_S257x256_S4000x256_1_0_0_1_n_n.contr.Idx) :
    (dot_S4000x257_S257x256_S4000x256_1_0_0_1_n_n.rhsIdx i s 0).val = (s ⟨0, by decide⟩).val :=
  dot_S4000x257_S257x256_S4000x256_1_0_0_1_n_n.rhsIdx_val_of_single rfl i s
/-- The right operand's column is the output's column. -/
theorem rhs_axis1 (i : S4000x256.Idx) (s : dot_S4000x257_S257x256_S4000x256_1_0_0_1_n_n.contr.Idx) :
    (dot_S4000x257_S257x256_S4000x256_1_0_0_1_n_n.rhsIdx i s 1).val = (i 1).val := by
  unfold DotDims.rhsIdx
  rw [dif_neg (show ¬(1 : Fin S257x256.rank) ∈ dot_S4000x257_S257x256_S4000x256_1_0_0_1_n_n.rhsBatch by decide), dif_pos (show (1 : Fin S257x256.rank) ∈ dot_S4000x257_S257x256_S4000x256_1_0_0_1_n_n.rhsNonContracting by decide)]
  rfl

/-! ## The non-pointwise operations at an index -/

/-- The block's matrix product into zeros, at row `p` and column `q`: the sum over the 257 shared coordinates. -/
theorem product_at (x : FVec Ideal S4000x257 .bf16) (w : FVec Ideal S257x256 .bf16) (p : Fin 4000) (q : Fin 256) :
    matmul (F := Ideal) dot_S4000x257_S257x256_S4000x256_1_0_0_1_n_n none x w (constant S4000x256 .f32 0x00000000#32) (ix2 p q)
      = ∑ k : Fin 257, x (ix2 p k) * w (ix2 k q) := by
  simp only [matmul]
  rw [Ideal.matmul_constant_zero_apply, ← Equiv.sum_comp (contrEquiv1 dot_S4000x257_S257x256_S4000x256_1_0_0_1_n_n 257 rfl rfl).symm]
  refine Finset.sum_congr rfl fun k _ => ?_
  have hk := contrEquiv1_symm_val dot_S4000x257_S257x256_S4000x256_1_0_0_1_n_n 257 rfl rfl k
  have el : dot_S4000x257_S257x256_S4000x256_1_0_0_1_n_n.lhsIdx (ix2 p q) ((contrEquiv1 dot_S4000x257_S257x256_S4000x256_1_0_0_1_n_n 257 rfl rfl).symm k) = ix2 p k := funext fun a => Fin.ext (by
    match a with
    | ⟨0, _⟩ => exact lhs_axis0 _ _
    | ⟨1, _⟩ => exact (lhs_axis1 _ _).trans hk)
  have er : dot_S4000x257_S257x256_S4000x256_1_0_0_1_n_n.rhsIdx (ix2 p q) ((contrEquiv1 dot_S4000x257_S257x256_S4000x256_1_0_0_1_n_n 257 rfl rfl).symm k) = ix2 k q := funext fun a => Fin.ext (by
    match a with
    | ⟨0, _⟩ => exact (rhs_axis0 _ _).trans hk
    | ⟨1, _⟩ => exact rhs_axis1 _ _)
  rw [el, er]

/-- The bias row repeated down the rows: every row reads the single row of `v`. -/
theorem bias_at (v : FVec Ideal S1x256 .f32) (p : Fin 4000) (q : Fin 256) :
    broadcastTo S4000x256 v broadcasts_S1x256_S4000x256 (ix2 p q) = v (ix2 (0 : Fin 1) q) :=
  broadcastTo_apply v broadcasts_S1x256_S4000x256 (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])

/-! ## The stored value -/

/-- What the body stores at row `p`, column `q` of its output block, from the three blocks it loaded. -/
theorem stored_at (x : Vec Ideal S4000x257 .f32) (w : Vec Ideal S257x256 .f32) (v : Vec Ideal S1x256 .f32) (p : Fin 4000) (q : Fin 256) :
    k0_pay1 (F := Ideal) x w v (ix2 p q) = (∑ k : Fin 257, x (ix2 p k) * w (ix2 k q)) + v (ix2 (0 : Fin 1) q) := by
  unfold k0_pay1
  rw [addf_apply, product_at, bias_at, shapeCast_self, shapeCast_self]
  rfl

end Cert.KernelIdeal.BlockValue

end
-- ==== Proof.KernelArray.lean ====
/-
  The kernel's output array after the run, as one function of the arrays the launch finds.

  The grid has 25 points. Point `t` reads rows `4000·t … 4000·t + 3999` of the table (all 257 columns), the whole weight
  matrix and the whole one-row bias, and writes rows `4000·t … 4000·t + 3999` of the output (all 256 columns). Row `p` of
  the block at point `t` is row `4000·t + p` of the array, so what point `t` writes back is block `t` of the affine map of the
  whole arrays; the 25 row blocks tile the 100000 rows, so the output array ends holding the affine map everywhere.
-/
import proofs.«172133_j76192719831671_1_alg».proof.Proof.Gen.KernelIdeal.Value
import proofs.«172133_j76192719831671_1_alg».proof.Proof.Affine
import proofs.«172133_j76192719831671_1_alg».proof.Proof.Payload
import Idealize.ShloMosaic.Lib.Pipeline.Value
import Idealize.ShloMosaic.Lib.ValueIdx

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the launch finds, at their literal types -/

/-- The table of 100000 rows and 257 columns the region reads its row blocks from. -/
abbrev table (c : Dev nD) : FVec Ideal S100000x257 .f32 := V m c main_v3
/-- The weight matrix. -/
abbrev weights (c : Dev nD) : FVec Ideal S257x256 .f32 := V m c main_arg3
/-- The bias as one row. -/
abbrev biasRow (c : Dev nD) : FVec Ideal S1x256 .f32 := V m c main_v4
/-- The bias row as a vector of 256 entries. -/
abbrev bias (c : Dev nD) : FVec Ideal S256 .f32 := fun a => biasRow m c (ix2 (0 : Fin 1) (a 0))

/-- The affine map of those arrays: what the output array is shown to hold. -/
abbrev result (c : Dev nD) : FVec Ideal S100000x256 .f32 := Cert.Affine.affine (table m c) (weights m c) (bias m c)

/-! ## Where each window's block sits -/

/-- The block indices, decided over the 25 points: the table's and the output's row block is the point, every other
    block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's block at point `t`: row `p` of the block is row `4000·t + p` of the table. -/
theorem table_block (c : Dev nD) (t : Fin cfg0.N) (x : S4000x257.Idx) (k : S100000x257.Idx)
    (hk0 : (k 0).val = 4000 * t.val + (x 0).val) (hk1 : (k 1).val = (x 1).val) :
    (iblk m c 0 t : Vec Ideal S4000x257 .f32) x = table m c k := by
  obtain ⟨e0, e1, -⟩ := block_indices t
  unfold iblk
  rw [View.read_apply]
  show V m c main_v3 _ = V m c main_v3 _
  congr 1
  funext a
  apply Fin.ext
  match a with
  | ⟨0, _⟩ => show win0_0.index t 0 * 4000 + 1 * (x 0).val = (k 0).val; rw [e0, hk0]; omega
  | ⟨1, _⟩ => show win0_0.index t 1 * 257 + 1 * (x 1).val = (k 1).val; rw [e1, hk1]; omega

/-- The weight matrix's block at every point is the whole matrix. -/
theorem weights_block (c : Dev nD) (t : Fin cfg0.N) : (iblk m c 1 t : Vec Ideal S257x256 .f32) = weights m c := by
  obtain ⟨-, -, e0, e1, -⟩ := block_indices t
  funext x
  unfold iblk
  rw [View.read_apply]
  show V m c main_arg3 _ = V m c main_arg3 _
  congr 1
  funext a
  apply Fin.ext
  match a with
  | ⟨0, _⟩ => show win0_1.index t 0 * 257 + 1 * (x 0).val = (x 0).val; rw [e0]; omega
  | ⟨1, _⟩ => show win0_1.index t 1 * 256 + 1 * (x 1).val = (x 1).val; rw [e1]; omega

/-- The bias row's block at every point is the whole row. -/
theorem bias_block (c : Dev nD) (t : Fin cfg0.N) : (iblk m c 2 t : Vec Ideal S1x256 .f32) = biasRow m c := by
  obtain ⟨-, -, -, -, e0, e1, -⟩ := block_indices t
  funext x
  unfold iblk
  rw [View.read_apply]
  show V m c main_v4 _ = V m c main_v4 _
  congr 1
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-! ## What a point writes back -/

/-- Over plain arrays: if a block `x` holds rows `4000·n … ` of a table `H`, then the value the body stores at an index `j`
    of its output block is the affine map of `H` at the array index `i` that `j` lands on (row `4000·n + j₀`, column `j₁`). -/
theorem stored_is_affine (H : FVec Ideal S100000x257 .f32) (W : FVec Ideal S257x256 .f32) (B : FVec Ideal S1x256 .f32)
    (n : Nat) (x : Vec Ideal S4000x257 .f32)
    (hx : ∀ (y : S4000x257.Idx) (k : S100000x257.Idx), (k 0).val = 4000 * n + (y 0).val → (k 1).val = (y 1).val → x y = H k)
    (j : S4000x256.Idx) (i : S100000x256.Idx) (hi0 : (i 0).val = 4000 * n + (j 0).val) (hi1 : (i 1).val = (j 1).val) :
    k0_pay1 (F := Ideal) x W B j = Cert.Affine.affine H W (fun a => B (ix2 (0 : Fin 1) (a 0))) i := by
  obtain ⟨p, q, rfl⟩ : ∃ (p : Fin 4000) (q : Fin 256), j = ix2 p q := ⟨j 0, j 1, eq_ix2 j⟩
  rw [Cert.KernelIdeal.BlockValue.stored_at]
  unfold Cert.Affine.affine Cert.Affine.entry Cert.Affine.rowDot
  have hq : (⟨(i 1).val, (i 1).isLt⟩ : Fin 256) = q := Fin.ext hi1
  rw [hq]
  congr 1
  refine Finset.sum_congr rfl fun k _ => ?_
  rw [hx (ix2 p k) (ix2 ⟨(i 0).val, (i 0).isLt⟩ k) hi0 rfl]

/-- WHAT POINT `t` WRITES BACK is block `t` of the affine map of the arrays the launch finds. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S4000x257) zero_offsets, View.ld_unit_zero (S := S257x256) zero_offsets,
    View.ld_unit_zero (S := S1x256) zero_offsets]
  rw [weights_block m c t, bias_block m c t]
  obtain ⟨-, -, -, -, -, -, e0, e1⟩ := block_indices t
  funext j
  show k0_pay1 (F := Ideal) (iblk m c 0 t) (weights m c) (biasRow m c) j = result m c (((cfg0.win 3).blk t).view.emb j)
  refine stored_is_affine (table m c) (weights m c) (biasRow m c) t.val (iblk m c 0 t)
    (fun y k h0 h1 => table_block m c t y k h0 h1) j (((cfg0.win 3).blk t).view.emb j) ?_ ?_
  · show win0_3.index t 0 * 4000 + 1 * (j 0).val = 4000 * t.val + (j 0).val
    rw [e0]; omega
  · show win0_3.index t 1 * 256 + 1 * (j 1).val = (j 1).val
    rw [e1]; omega

/-! ## The row blocks tile the output -/

/-- An index of the output is in point `t`'s block iff each coordinate is in the block's range on its axis. -/
theorem mem_block (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v5).slice (win0_3.rect t)).set ↔ _
  rw [View.set_slice_whole, Rect.mem_set_unit]
  exact Iff.rfl

/-- Every index of the output lies in the block of the point that is its row divided by 4000. -/
theorem covered (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := N_0
  refine ⟨⟨(i 0).val / 4000, by rw [hN]; omega⟩, flush0_3 _, ?_⟩
  rw [mem_block]
  obtain ⟨-, -, -, -, -, -, e0, e1⟩ := block_indices ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 256 ≤ (i 1).val ∧ (i 1).val < win0_3.index _ (1 : Fin 2) * 256 + 256
    rw [e1]; omega

/-- THE OUTPUT ARRAY after the run is the affine map of the arrays the launch finds. -/
theorem final (c : Dev nD) : (dats m 0 c).arrAt 3 cfg0.N = result m c :=
  (dats m 0 c).arrAt_eq_of_cover 3 (result m c) (fun t _ => flushed_eq m c t) covered

end Cert.KernelIdeal.ArrayValue

end
-- ==== Proof.KernelRun.lean ====
/-
  The kernel's run, with its output named as a function of the five arguments.

  Before the launch the host operations build the table the kernel reads: the per-node sums of the edge values
  (a scatter-add of the edge column into a zero column, at the destination indices) joined as a 257th column onto the
  node features; and they recast the bias of 256 entries as one row. Neither the weights nor anything else is written.
  So the arrays the launch finds are these terms of the arguments, and the output array ends at the affine map of them.
-/
import proofs.«172133_j76192719831671_1_alg».proof.Proof.KernelArray
import Idealize.ShloMosaic.Lib.StableHlo.Run

noncomputable section

namespace Cert.KernelIdeal.RunValue

open Cert.KernelIdeal Cert.KernelIdeal.Gen Cert.KernelIdeal.Value Cert.KernelIdeal.ArrayValue
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The table the host operations build: the node features with the per-node sums of the edge values joined on as
    one more column. The sums are the scatter-add of the edge column into zeros at the destination indices. -/
def joined (x0 : (⟨S100000x256, .f32⟩ : BufTy).Contents (Elt Ideal)) (x1 : (⟨S3200000x1, .f32⟩ : BufTy).Contents (Elt Ideal))
    (x2 : (⟨S3200000, .i32⟩ : BufTy).Contents (Elt Ideal)) : (⟨S100000x257, .f32⟩ : BufTy).Contents (Elt Ideal) :=
  concatenate S100000x257 1 [⟨S100000x256, x0⟩, ⟨S100000x1, Host.scatterAdd (F := Ideal) scatter_S100000x1_S3200000x1_S3200000x1_1_0_0_1
    (broadcastInDim S100000x1 ![] bcast_S_S100000x1 (constant (F := Ideal) S_ .f32 0x00000000#32))
    (broadcastInDim S3200000x1 ![0] bcast_S3200000_S3200000x1_0 x2) x1⟩] concatenates_S100000x256_S100000x1_S100000x257_d1

/-- The table the launch finds is the joined table of the arguments. -/
theorem table_eq (c : Dev nD) :
    table m c = joined (m ((c : Thread nD τ).loc main_arg0)) (m ((c : Thread nD τ).loc main_arg1)) (m ((c : Thread nD τ).loc main_arg2)) := by
  show (V m c main_v3 : S100000x257.Idx → Ideal .f32) = _
  unfold joined
  dsimp only [Gen.V, Gen.hostOps0]
  after_results

/-- The weights the launch finds are the argument. -/
theorem weights_eq (c : Dev nD) : weights m c = m ((c : Thread nD τ).loc main_arg3) := V_main_arg3 m c

/-- The bias row the launch finds is the bias argument recast as one row: entry `q` of its single row is entry `q`. -/
theorem bias_eq (c : Dev nD) : bias m c = m ((c : Thread nD τ).loc main_arg4) := by
  have e : (V m c main_v4 : S1x256.Idx → Ideal .f32)
      = shapeCast S1x256 (m ((c : Thread nD τ).loc main_arg4) : S256.Idx → Ideal .f32) shapeCasts_S256_S1x256 := by
    dsimp only [Gen.V, Gen.hostOps0]
    after_results
    rfl
  funext a
  show (V m c main_v4 : S1x256.Idx → Ideal .f32) (ix2 (0 : Fin 1) (a 0)) = _
  rw [e]
  refine shapeCast_apply _ _ _ a ?_
  rw [Shape.rowMajor_val_one, Shape.rowMajor_val_two]
  show (a 0).val = 0 * 256 + (a 0).val
  omega

/-- The run, read: the output array at the affine map of the joined table, the weights and the bias; the arguments unchanged. -/
theorem run : θ_run defs (onTc (τ := τ) (main (F := Ideal))) ⟨m, fun _ => 0, ρ⟩ fun r => ∀ c : Dev nD,
      r.2.mem ((c : Thread nD τ).loc main_v5) = Cert.Affine.affine
          (joined (m ((c : Thread nD τ).loc main_arg0)) (m ((c : Thread nD τ).loc main_arg1)) (m ((c : Thread nD τ).loc main_arg2)))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by
      rw [final m c]
      show Cert.Affine.affine (table m c) (weights m c) (bias m c) = _
      rw [table_eq m c, weights_eq m c, bias_eq m c]), (h c).2⟩)
    (Cert.KernelIdeal.Value.run_blocks m ρ)

end Cert.KernelIdeal.RunValue

end
-- ==== Proof.RefArray.lean ====
/-
  The reference's result array is the affine map of its concatenated table.

  The reference joins the node features with the per-node sums into a table of 257 columns, multiplies it by the weight
  matrix on the host and adds the bias repeated down the rows. Read at row `r` and column `c` this is
      (∑ k < 257, table[r, k] · w[k, c]) + b[c]:
  the host product is the plain sum over its one contracted axis, and the two repetitions of the bias read entry `c`.
  The table itself (the scatter-sum and the join) is kept whole: the kernel builds the same table with the same operations.
-/
import proofs.«172133_j76192719831671_1_alg».proof.Proof.Gen.ReferenceIdeal.Read
import proofs.«172133_j76192719831671_1_alg».proof.Proof.Affine

noncomputable section

open scoped BigOperators

namespace Cert.ReferenceIdeal.ArrayValue

open Cert.ReferenceIdeal Cert.ReferenceIdeal.Gen Cert.ReferenceIdeal.Read
open Idealize.ShloMosaic Idealize.ShloMosaic.ValueIdx

/-- The reference's last stage, index by index, is the affine map of the joined table, the weights and the bias. -/
theorem result_is_affine (x0 : (⟨S100000x256, .f32⟩ : BufTy).Contents (Elt Ideal)) (x1 : (⟨S3200000x1, .f32⟩ : BufTy).Contents (Elt Ideal))
    (x2 : (⟨S3200000, .i32⟩ : BufTy).Contents (Elt Ideal)) (x3 : (⟨S257x256, .f32⟩ : BufTy).Contents (Elt Ideal))
    (x4 : (⟨S256, .f32⟩ : BufTy).Contents (Elt Ideal)) :
    val_main_v7 (F := Ideal) x0 x1 x2 x3 x4 = Cert.Affine.affine (val_main_v3 (F := Ideal) x0 x1 x2) x3 x4 := by
  funext i
  have el : ∀ k : Fin 257, lidx_main_v4 i k = ix2 (⟨(i 0).val, (i 0).isLt⟩ : Fin 100000) k := fun k =>
    funext fun a => Fin.ext (by match a with | ⟨0, _⟩ => rfl | ⟨1, _⟩ => rfl)
  have er : ∀ k : Fin 257, ridx_main_v4 i k = ix2 k (⟨(i 1).val, (i 1).isLt⟩ : Fin 256) := fun k =>
    funext fun a => Fin.ext (by match a with | ⟨0, _⟩ => rfl | ⟨1, _⟩ => rfl)
  have eb : idx_main_v5 (idx_main_v6 i) = ix1 (⟨(i 1).val, (i 1).isLt⟩ : Fin 256) :=
    funext fun a => Fin.ext (by match a with | ⟨0, _⟩ => rfl)
  rw [val_main_v7_apply, val_main_v4_apply, val_main_v6_apply, val_main_v5_apply]
  simp only [el, er, eb]
  rfl

end Cert.ReferenceIdeal.ArrayValue

end
-- ==== Proof.lean ====
/-
  A linear layer over node features joined with a per-node sum of edge values: the kernel against its reference,
  over the extended reals.

  Both programs first build the same table on the host: for each of the 100000 nodes, the 256 node features and, as a
  257th column, the sum of the values of the edges that point at the node (a scatter-add of the edge column into zeros
  at the destination indices). The reference then multiplies the table by the 257 × 256 weight matrix in one host
  product and adds the bias to every row. The kernel does the same product 4000 rows at a time over a grid of 25
  points, narrowing both operands to a shorter float format first and accumulating into zeros, and adds the bias row.

  On the extended reals a change of float format is the identity and both products are the plain sum over the 257
  shared coordinates, so at row `r` and column `c` both programs hold
      (∑ k < 257, table[r, k] · w[k, c]) + b[c]
  (`Cert.Affine.affine`). The kernel side: what a block stores at an index (`BlockValue.stored_at`), what a grid point
  writes back and that the 25 row blocks tile the output (`ArrayValue.flushed_eq`, `covered`, `final`), and the arrays the
  launch finds as terms of the arguments (`RunValue.table_eq`, `weights_eq`, `bias_eq`, `run`). The reference side: its
  last stage read index by index (`ReferenceIdeal.ArrayValue.result_is_affine`). The two tables are one term of the
  arguments (`same_table`), so the two results are equal without any law that would need finite inputs: the
  precondition is never opened. The idealization rewrote no operation, so that claim is trivial; the three frames are
  the generated frame runs.
-/
import proofs.«172133_j76192719831671_1_alg».proof.Defs
import proofs.«172133_j76192719831671_1_alg».proof.Proof.Gen.Kernel
import proofs.«172133_j76192719831671_1_alg».proof.Proof.Gen.Kernel.Frame
import proofs.«172133_j76192719831671_1_alg».proof.Proof.Gen.KernelIdeal
import proofs.«172133_j76192719831671_1_alg».proof.Proof.Gen.KernelIdeal.Frame
import proofs.«172133_j76192719831671_1_alg».proof.Proof.Gen.KernelIdeal.Value
import proofs.«172133_j76192719831671_1_alg».proof.Proof.Gen.ReferenceIdeal
import proofs.«172133_j76192719831671_1_alg».proof.Proof.Gen.ReferenceIdeal.Run
import proofs.«172133_j76192719831671_1_alg».proof.Proof.Gen.ReferenceIdeal.Read
import proofs.«172133_j76192719831671_1_alg».proof.Proof.Gen.Pre_finite_inputs
import proofs.«172133_j76192719831671_1_alg».proof.Proof.KernelRun
import proofs.«172133_j76192719831671_1_alg».proof.Proof.RefArray

noncomputable section

namespace Cert.Proof

open Idealize.ShloMosaic Idealize.ShloMosaic.TcCoe Idealize.SL.Sem

/-- The table the kernel's host operations build and the table the reference's build are the same term of the same
    arrays: the same zero column, the same scatter-add at the same indices, the same join. -/
theorem same_table (x0 : (⟨Cert.KernelIdeal.S100000x256, .f32⟩ : BufTy).Contents (Elt Ideal))
    (x1 : (⟨Cert.KernelIdeal.S3200000x1, .f32⟩ : BufTy).Contents (Elt Ideal))
    (x2 : (⟨Cert.KernelIdeal.S3200000, .i32⟩ : BufTy).Contents (Elt Ideal)) :
    Cert.ReferenceIdeal.Read.val_main_v3 (F := Ideal) x0 x1 x2 = Cert.KernelIdeal.RunValue.joined x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed nothing in the kernel's text. -/
theorem preserves : Cert.preserves_Kernel_KernelIdeal := trivial

/-- Both programs end with the affine map of the joined table, the weights and the bias, of arguments that agree. -/
theorem algebraic : Cert.algebraic_KernelIdeal_ReferenceIdeal := by
  intro m ρ m' ρ' _ hagree
  refine ⟨fun c => Cert.Affine.affine
      (Cert.KernelIdeal.RunValue.joined (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.ArrayValue.result_is_affine,
    (hagree c).1, (hagree c).2.1, (hagree c).2.2.1, (hagree c).2.2.2.1, (hagree c).2.2.2.2, same_table]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
